-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S8192x11008 : Shape := ⟨2, ![8192, 11008]⟩
abbrev S512x4096 : Shape := ⟨2, ![512, 4096]⟩
abbrev S256x4096 : Shape := ⟨2, ![256, 4096]⟩
abbrev S256 : Shape := ⟨1, ![256]⟩
abbrev S512x256 : Shape := ⟨2, ![512, 256]⟩
abbrev S256x1 : Shape := ⟨2, ![256, 1]⟩
abbrev S4x2048x11008 : Shape := ⟨3, ![4, 2048, 11008]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S8192x4096, .f32⟩
  | .hbm, ⟨4, _⟩ => ⟨S8192x11008, .f32⟩
  | .hbm, ⟨5, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256, .f32⟩
  | .local _ .vmem, ⟨5, _⟩ => ⟨S256, .f32⟩
  | .local _ .vmem, ⟨6, _⟩ => ⟨S512x256, .f32⟩
  | .local _ .vmem, ⟨7, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256_S256_0 : ∀ a, (![0] : Fin 1 → Nat) a + S256.size a ≤ S256.size a
  h_S256 : 0 < S256.numel
  shapeCasts_S256_S256x1 : S256.ShapeCasts S256x1
  broadcasts_S256x1_S256x4096 : S256x1.Broadcasts S256x4096
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S11008.size a
  hwx0_2 : ∀ i : grid0.Coords, EltTy.bits .f32 = 32 ∨ (Rect.block (s := S11008) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x11008.size a
  hwx0_3 : ∀ i : grid0.Coords, EltTy.bits .f32 = 32 ∨ (Rect.block (s := S8192x11008) S512x256.size (cc0_transform_3 i) (hinb0_3 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S4x2048x11008 : Shape := ⟨3, ![4, 2048, 11008]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .f32⟩
  | .hbm, ⟨4, _⟩ => ⟨S11008x1, .f32⟩
  | .hbm, ⟨5, _⟩ => ⟨S11008x4096, .f32⟩
  | .hbm, ⟨6, _⟩ => ⟨S11008x4096, .f32⟩
  | .hbm, ⟨7, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The dequantised product, as one function of its three operands.

  A weight matrix is stored as integers, one scale per output channel: row `o` of the real weight is the integer
  row `o` (each integer read signed, exactly) times `s o`. The product of an activation matrix with the transpose of
  that weight has, at row `r` and channel `o`, the value `∑ k, x (r, k) · (w (o, k) · s o)`.

  Two forms are stated: over a matrix of `R` rows, and over a batch of `B` matrices of `T` rows each. Flattening the
  batch to `B · T` rows, taking the first form and unflattening the result is the second form: row `b · T + t` of
  the flattened activations is row `(b, t)` of the batch, and the same holds of the result, because both
  flattenings keep the row-major position. No law of arithmetic is involved: the two sums have the same terms.
-/
import Idealize.ShloMosaic.PureOps.Ideal
import Idealize.ShloMosaic.Lib.ValueIdx
import Idealize.ShloMosaic.Lib.Pipeline.Value

noncomputable section

namespace Cert.Dequant

open Idealize.ShloMosaic Idealize.ShloMosaic.ValueIdx
open scoped BigOperators

/-- Entry `(r, o)` of an `R × K` matrix times the transpose of the `N × K` weight whose row `o` is the integer row
    scaled by `s o`. -/
def rowsTimesScaled {R N K : Nat} (x : FVec Ideal ⟨2, ![R, K]⟩ .f32) (w : IVec ⟨2, ![N, K]⟩ 32)
    (s : FVec Ideal ⟨1, ![N]⟩ .f32) : FVec Ideal ⟨2, ![R, N]⟩ .f32 :=
  fun j => ∑ k : Fin K, x (ix2 (j 0) k) * (FloatOps.sitofp (F := Ideal) .f32 (w (ix2 (j 1) k)) * s (ix1 (j 1)))

/-- The same over a batch: entry `(b, t, o)`. -/
def batchTimesScaled {B T N K : Nat} (x : FVec Ideal ⟨3, ![B, T, K]⟩ .f32) (w : IVec ⟨2, ![N, K]⟩ 32)
    (s : FVec Ideal ⟨1, ![N]⟩ .f32) : FVec Ideal ⟨3, ![B, T, N]⟩ .f32 :=
  fun i => ∑ k : Fin K, x (ix3 (i 0) (i 1) k) * (FloatOps.sitofp (F := Ideal) .f32 (w (ix2 (i 2) k)) * s (ix1 (i 2)))

/-- The first form at explicit coordinates. -/
theorem rowsTimesScaled_apply {R N K : Nat} (x : FVec Ideal ⟨2, ![R, K]⟩ .f32) (w : IVec ⟨2, ![N, K]⟩ 32)
    (s : FVec Ideal ⟨1, ![N]⟩ .f32) (r : Fin R) (o : Fin N) :
    rowsTimesScaled x w s (ix2 r o)
      = ∑ k : Fin K, x (ix2 r k) * (FloatOps.sitofp (F := Ideal) .f32 (w (ix2 o k)) * s (ix1 o)) := rfl

/-- A block of the product is the product of blocks: if row `p` of a small activation matrix is row `i 0` of a large
    one, and row `q` of a small weight and entry `q` of a small scale vector are row `i 1` and entry `i 1` of the large
    ones, then entry `(p, q)` of the small product is entry `i` of the large product. The contraction axis is whole in
    both, so the sums have the same terms. -/
theorem block_of_whole {R N K R' N' : Nat} (X : FVec Ideal ⟨2, ![R, K]⟩ .f32) (W : IVec ⟨2, ![N, K]⟩ 32)
    (S : FVec Ideal ⟨1, ![N]⟩ .f32) (x0 : FVec Ideal ⟨2, ![R', K]⟩ .f32) (x1 : IVec ⟨2, ![N', K]⟩ 32)
    (x2 : FVec Ideal ⟨1, ![N']⟩ .f32) (p : Fin R') (q : Fin N') (i : (⟨2, ![R, N]⟩ : Shape).Idx)
    (h0 : ∀ k, x0 (ix2 p k) = X (ix2 (i 0) k)) (h1 : ∀ k, x1 (ix2 q k) = W (ix2 (i 1) k))
    (h2 : x2 (ix1 q) = S (ix1 (i 1))) :
    rowsTimesScaled x0 x1 x2 (ix2 p q) = rowsTimesScaled X W S i := by
  rw [rowsTimesScaled_apply]
  unfold rowsTimesScaled
  exact Finset.sum_congr rfl fun k _ => by rw [h0 k, h1 k, h2]

/-- Flatten 4 × 2048 rows to 8192, multiply, unflatten: the batched product. Row `b · 2048 + t` of the flattened
    operand and of the flat result is row `(b, t)`. -/
theorem unflatten_rowsTimesScaled (x : FVec Ideal ⟨3, ![4, 2048, 4096]⟩ .f32) (w : IVec ⟨2, ![11008, 4096]⟩ 32)
    (s : FVec Ideal ⟨1, ![11008]⟩ .f32)
    (hin : (⟨3, ![4, 2048, 4096]⟩ : Shape).ShapeCasts ⟨2, ![8192, 4096]⟩)
    (hout : (⟨2, ![8192, 11008]⟩ : Shape).ShapeCasts ⟨3, ![4, 2048, 11008]⟩) :
    shapeCast ⟨3, ![4, 2048, 11008]⟩ (rowsTimesScaled (shapeCast ⟨2, ![8192, 4096]⟩ x hin) w s) hout
      = batchTimesScaled x w s := by
  funext i
  obtain ⟨b, t, o, rfl⟩ : ∃ (b : Fin 4) (t : Fin 2048) (o : Fin 11008), i = ix3 b t o := ⟨i 0, i 1, i 2, eq_ix3 i⟩
  have hr : b.val * 2048 + t.val < 8192 := by have := b.isLt; have := t.isLt; omega
  rw [shapeCast_apply _ hout (ix3 b t o) (ix2 (⟨b.val * 2048 + t.val, hr⟩ : Fin 8192) o) (by
    rw [Shape.rowMajor_val_two, Shape.rowMajor_val_three]; rfl)]
  rw [rowsTimesScaled_apply]
  refine Finset.sum_congr rfl fun k _ => ?_
  rw [shapeCast_apply x hin (ix2 (⟨b.val * 2048 + t.val, hr⟩ : Fin 8192) k) (ix3 b t k) (by
    rw [Shape.rowMajor_val_two, Shape.rowMajor_val_three]; rfl)]

end Cert.Dequant

end
-- ==== Proof.RefSide.lean ====
/-
  The reference's result is the batched dequantised product.

  The reference converts the integer weight, spreads the scale vector along the rows (first to a column, then across
  the contraction axis), multiplies entry by entry and contracts the activations' last axis against the scaled weight's
  last axis. Read at `(b, t, o)` this is `∑ k, x (b, t, k) · (w (o, k) · s o)`: the spread scale at `(o, k)` is `s o`.
-/
import proofs.«126689_j1726576855246_1_alg».proof.Proof.Gen.ReferenceIdeal.Read
import proofs.«126689_j1726576855246_1_alg».proof.Proof.Spec

noncomputable section

namespace Cert.ReferenceIdeal.RefValue

open Cert.ReferenceIdeal Cert.ReferenceIdeal.Read Idealize.ShloMosaic Idealize.ShloMosaic.ValueIdx
open scoped BigOperators

/-- The left operand of the contraction is read at `(b, t, k)`. -/
theorem lidx_eq (b : Fin 4) (t : Fin 2048) (o : Fin 11008) (k : Fin 4096) : lidx_main_v4 (ix3 b t o) k = ix3 b t k :=
  funext fun a => Fin.ext (by match a with | ⟨0, _⟩ => rfl | ⟨1, _⟩ => rfl | ⟨2, _⟩ => rfl)

/-- The right operand is read at `(o, k)`. -/
theorem ridx_eq (b : Fin 4) (t : Fin 2048) (o : Fin 11008) (k : Fin 4096) : ridx_main_v4 (ix3 b t o) k = ix2 o k :=
  funext fun a => Fin.ext (by match a with | ⟨0, _⟩ => rfl | ⟨1, _⟩ => rfl)

/-- The spread scale at `(o, k)` is the scale vector at `o`. -/
theorem scale_idx_eq (o : Fin 11008) (k : Fin 4096) : idx_main_v1 (idx_main_v2 (ix2 o k)) = ix1 o :=
  funext fun a => Fin.ext (by match a with | ⟨0, _⟩ => rfl)

theorem result_eq (x0 : (⟨S4x2048x4096, .f32⟩ : BufTy).Contents (Elt Ideal)) (x1 : (⟨S11008x4096, .i32⟩ : BufTy).Contents (Elt Ideal))
    (x2 : (⟨S11008, .f32⟩ : BufTy).Contents (Elt Ideal)) :
    val_main_v4 (F := Ideal) x0 x1 x2 = Cert.Dequant.batchTimesScaled x0 x1 x2 := by
  funext i
  obtain ⟨b, t, o, rfl⟩ : ∃ (b : Fin 4) (t : Fin 2048) (o : Fin 11008), i = ix3 b t o := ⟨i 0, i 1, i 2, eq_ix3 i⟩
  rw [val_main_v4_apply]
  show _ = ∑ k : Fin 4096, x0 (ix3 b t k) * (FloatOps.sitofp (F := Ideal) .f32 (x1 (ix2 o k)) * x2 (ix1 o))
  refine Finset.sum_congr rfl fun k _ => ?_
  rw [val_main_v3_apply, val_main_v0_apply, val_main_v2_apply, val_main_v1_apply, lidx_eq, ridx_eq, scale_idx_eq]
  rfl

end Cert.ReferenceIdeal.RefValue

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Payload.lean ====
/-
  What the kernel body stores, as a function of the three blocks it loads.

  The body narrows the activation block, converts the integer weight block, multiplies each of its rows by that
  row's scale (the scale vector made a column and spread across the row), narrows the product, and multiplies the two
  narrowed blocks with both contracted along their second axis, into a zero accumulator. On extended reals a change
  of format is the identity, the spread column at `(q, k)` is the scale at `q`, and the product into zero is the
  plain sum: the stored block is the dequantised product of the three loaded blocks.
-/
import proofs.«126689_j1726576855246_1_alg».proof.Proof.Gen.KernelIdeal.Skeleton
import proofs.«126689_j1726576855246_1_alg».proof.Proof.LibDotFormats
import proofs.«126689_j1726576855246_1_alg».proof.Proof.LibColumn
import proofs.«126689_j1726576855246_1_alg».proof.Proof.Spec

noncomputable section

namespace Cert.KernelIdeal.Hand

open Cert.KernelIdeal Cert.KernelIdeal.Gen Idealize.ShloMosaic Idealize.ShloMosaic.ValueIdx
open scoped BigOperators

theorem payload_eq (x0 : Vec Ideal S512x4096 .f32) (x1 : Vec Ideal S256x4096 .i32) (x2 : Vec Ideal S256 .f32) :
    k0_pay1 (F := Ideal) x0 x1 x2 = Cert.Dequant.rowsTimesScaled x0 x1 x2 := by
  funext j
  obtain ⟨p, q, rfl⟩ : ∃ (p : Fin 512) (q : Fin 256), j = ix2 p q := ⟨j 0, j 1, eq_ix2 j⟩
  rw [Cert.Dequant.rowsTimesScaled_apply]
  unfold k0_pay1
  refine (Cert.LibDotFormats.matmul_rows_zero_apply _ rfl rfl rfl rfl rfl rfl none _ _ p q).trans ?_
  refine Finset.sum_congr rfl fun k _ => ?_
  rw [truncf_apply, truncf_apply, shapeCast_self, mulf_apply, sitofp_apply,
    Cert.LibColumn.broadcastTo_a1_ab_apply, Cert.LibColumn.shapeCast_a_a1_apply]

end Cert.KernelIdeal.Hand

end
-- ==== Proof.KernelArray.lean ====
/-
  The kernel's output array after the run, as one function of the three arrays the region reads.

  The grid has 16 × 43 points; point `t` has row-block `t / 43` and channel-block `t % 43`. There it reads rows
  `512 · (t / 43) …` of the activations (all 4096 columns), rows `256 · (t % 43) …` of the integer weight (all 4096
  columns) and the same 256 entries of the scale vector, and writes back the 512 × 256 block of the output at that
  row-block and channel-block. What it writes is the dequantised product of the three blocks (the payload), which is
  that block of the dequantised product of the three whole arrays, because the contraction axis is not cut. The 688
  blocks tile the 8192 × 11008 output, so the output array ends at the whole product.
-/
import proofs.«126689_j1726576855246_1_alg».proof.Proof.Gen.KernelIdeal.Frame
import proofs.«126689_j1726576855246_1_alg».proof.Proof.Payload
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- The three arrays as the region finds them, at their literal types. -/
abbrev xArr (c : Dev nD) : FVec Ideal S8192x4096 .f32 := V m c main_v0
abbrev wArr (c : Dev nD) : IVec S11008x4096 32 := V m c main_arg1
abbrev sArr (c : Dev nD) : FVec Ideal S11008 .f32 := V m c main_arg2
/-- The three blocks point `t` reads, at their literal types. -/
abbrev xBlk (c : Dev nD) (t : Fin cfg0.N) : FVec Ideal S512x4096 .f32 := iblk m c 0 t
abbrev wBlk (c : Dev nD) (t : Fin cfg0.N) : IVec S256x4096 32 := iblk m c 1 t
abbrev sBlk (c : Dev nD) (t : Fin cfg0.N) : FVec Ideal S256 .f32 := iblk m c 2 t

theorem zeros2 : (![0, 0] : Fin 2 → Nat) = fun _ => 0 := funext fun a => by fin_cases a <;> rfl
theorem zeros1 : (![0] : Fin 1 → Nat) = fun _ => 0 := funext fun a => by fin_cases a <;> rfl

/-- The block indices at point `t`: the output's are `(t / 43, t % 43)`; the activations follow the row-block, the weight
    and the scale the channel-block, and the contraction axis is block 0 throughout. -/
theorem block_indices : ∀ t : Fin cfg0.N,
    win0_3.index t (0 : Fin 2) = t.val / 43 ∧ win0_3.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 1) = t.val % 43 :=
  (by decide +kernel : ∀ t : Fin grid0.N, _)

/-- What point `t` writes back is block `t` of the dequantised product of the whole arrays. -/
theorem flushed_eq (c : Dev nD) (t : Fin cfg0.N) :
    (dats m 0 c).flushed 3 t
      = ((cfg0.win 3).blk t).view.read (Elt Ideal) (Cert.Dequant.rowsTimesScaled (xArr m c) (wArr m c) (sArr m c)) := by
  show (cfg0.win 3).cut (grid0.coords t) ((dats m 0 c).after 3 t) = _
  rw [after0_3]
  unfold out0_3
  rw [View.canon_unit_zero zeros2]
  simp only [View.ld_unit_zero (S := S512x4096) zeros2, View.ld_unit_zero (S := S256x4096) zeros2,
    View.ld_unit_zero (S := S256) zeros1]
  rw [payload_eq]
  obtain ⟨e30, e31, e00, e01, e10, e11, e20⟩ := block_indices t
  funext j
  obtain ⟨p, q, rfl⟩ : ∃ (p : Fin 512) (q : Fin 256), j = ix2 p q := ⟨j 0, j 1, eq_ix2 j⟩
  show Cert.Dequant.rowsTimesScaled (xBlk m c t) (wBlk m c t) (sBlk m c t) (ix2 p q)
    = Cert.Dequant.rowsTimesScaled (xArr m c) (wArr m c) (sArr m c) (((cfg0.win 3).blk t).view.emb (ix2 p q))
  refine Cert.Dequant.block_of_whole (xArr m c) (wArr m c) (sArr m c) (xBlk m c t) (wBlk m c t) (sBlk m c t) p q _ ?_ ?_ ?_
  · intro k
    show V m c main_v0 (((cfg0.win 0).blk t).view.emb (ix2 p k)) = V m c main_v0 (ix2 ((((cfg0.win 3).blk t).view.emb (ix2 p q)) 0) k)
    refine congrArg _ (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  · intro k
    show V m c main_arg1 (((cfg0.win 1).blk t).view.emb (ix2 q k)) = V m c main_arg1 (ix2 ((((cfg0.win 3).blk t).view.emb (ix2 p q)) 1) k)
    refine congrArg _ (funext fun a => Fin.ext ?_)
    match a with
    | ⟨0, _⟩ => show win0_1.index t (0 : Fin 2) * 256 + 1 * q.val = win0_3.index t (1 : Fin 2) * 256 + 1 * q.val; omega
    | ⟨1, _⟩ => show win0_1.index t (1 : Fin 2) * 4096 + 1 * k.val = k.val; omega
  · show V m c main_arg2 (((cfg0.win 2).blk t).view.emb (ix1 q)) = V m c main_arg2 (ix1 ((((cfg0.win 3).blk t).view.emb (ix2 p q)) 1))
    refine congrArg _ (funext fun a => Fin.ext ?_)
    match a with
    | ⟨0, _⟩ => show win0_2.index t (0 : Fin 1) * 256 + 1 * q.val = win0_3.index t (1 : Fin 2) * 256 + 1 * q.val; omega

/-- An index of the output array is in point `t`'s block iff each coordinate is in the block's range on its axis. -/
theorem mem_blk (t : Fin cfg0.N) (i : S8192x11008.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v1).slice (win0_3.rect t)).set ↔ _
  rw [View.set_slice_whole, Rect.mem_set_unit]
  exact Iff.rfl

/-- Every index of the output is in the block of the point with its row-block and channel-block. -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, ht⟩ : ∃ t : Fin cfg0.N, t.val = (i 0).val / 512 * 43 + (i 1).val / 256 :=
    ⟨⟨(i 0).val / 512 * 43 + (i 1).val / 256, by rw [show cfg0.N = 688 from N_0]; omega⟩, rfl⟩
  obtain ⟨e30, e31, -⟩ := block_indices t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 256 ≤ (i 1).val ∧ (i 1).val < win0_3.index t (1 : Fin 2) * 256 + 256
    omega

/-- The output array after the run is the dequantised product of the arrays the region reads. -/
theorem final (c : Dev nD) :
    (dats m 0 c).arrAt 3 cfg0.N = Cert.Dequant.rowsTimesScaled (xArr m c) (wArr m c) (sArr m c) :=
  (dats m 0 c).arrAt_eq_of_cover 3 _ (fun t _ => flushed_eq m c t) covered

end Cert.KernelIdeal.Hand

end
-- ==== Proof.KernelRun.lean ====
/-
  The idealized kernel's run, read: its result is the batched dequantised product of its arguments.

  Before the region the program flattens the activations' batch of 4 × 2048 rows to 8192 rows; the region writes the
  8192 × 11008 product array; after the region the program unflattens that array to 4 × 2048 × 11008. The region's
  output array is the dequantised product of the flattened activations, the weight and the scale, and unflattening
  the product of the flattened operand is the batched product.
-/
import proofs.«126689_j1726576855246_1_alg».proof.Proof.KernelArray
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- The activations as the region finds them: the argument's batch flattened. -/
theorem xArr_eq (c : Dev nD) :
    xArr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The weight and the scale as the region finds them are the arguments. -/
theorem wArr_eq (c : Dev nD) : wArr m c = m ((c : Thread nD τ).loc main_arg1) := V_main_arg1 m c
theorem sArr_eq (c : Dev nD) : sArr m c = m ((c : Thread nD τ).loc main_arg2) := V_main_arg2 m c

/-- The result buffer after the lines that follow the region: the region's output array unflattened, which is the
    batched product of the arguments. -/
theorem tail_eq (c : Dev nD) :
    Pipeline.afterTail₀ cfgs (dats m) 0 (V0 m) [hostOps1] c main_v2
      = Cert.Dequant.batchTimesScaled (m ((c : Thread nD τ).loc main_arg0)) (m ((c : Thread nD τ).loc main_arg1))
          (m ((c : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = Cert.Dequant.rowsTimesScaled (xArr m c) (wArr m c) (sArr m c) :=
    (Pipeline.withArrays_arr spec0 launch0.win.arr_inj c _ _ 3).trans (final m c)
  rw [hw, xArr_eq, wArr_eq, sArr_eq]
  exact Cert.Dequant.unflatten_rowsTimesScaled _ _ _ _ _

/-- Every weakly fair execution of the idealized kernel terminates with its result at the batched dequantised product
    of its arguments, and the arguments unchanged. -/
theorem run : θ_run defs (onTc (τ := τ) (main (F := Ideal))) ⟨m, fun _ => 0, ρ⟩ fun r => ∀ c : Dev nD,
      r.2.mem ((c.tc : Thread nD τ).loc main_v2)
        = Cert.Dequant.batchTimesScaled (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Hand

end
-- ==== Proof.lean ====
/-
  A matrix product against an integer weight with one scale per output channel: the kernel and its reference
  compute the same function over the extended reals.

  The reference scales each row `o` of the integer weight (read signed, exactly) by `s o` and contracts the
  activations' last axis against the scaled weight's last axis: at `(b, t, o)` it holds `∑ k, x (b, t, k) · (w (o, k) · s o)`.

  The kernel flattens the batch of 4 × 2048 activation rows to 8192 rows, tiles the 8192 × 11008 result into 16 × 43
  blocks of 512 × 256, and at each grid point forms the same scaled rows for its 256 channels and multiplies them with
  its 512 activation rows over the whole contraction axis, after narrowing both operands to half precision and
  accumulating in single precision. Over the extended reals narrowing is the identity and the product into a zero
  accumulator is the plain sum, so each block is the dequantised product of the blocks it reads, hence a block of the
  dequantised product of the whole arrays; the blocks tile the output; and unflattening the product of the flattened
  activations is the batched product. Both sums have the same terms in the same grouping `x · (w · s)`, so no law
  of arithmetic beyond that is used and the inputs' finiteness is never opened.

  The modules: `Spec` (the product as a function, a block of it, the unflattening), `RefSide` (the reference's
  result is that function), `Payload` (what the body stores), `KernelArray` (the output array after the region),
  `KernelRun` (the lines around the region, and the kernel's run). The idealized kernel is the kernel's own text read
  over the extended reals, nothing rewritten, so the idealization claim is trivially true. The three frames are the
  programs' runs with the results dropped.
-/
import proofs.«126689_j1726576855246_1_alg».proof.Defs
import proofs.«126689_j1726576855246_1_alg».proof.Proof.Gen.Kernel
import proofs.«126689_j1726576855246_1_alg».proof.Proof.Gen.Kernel.Skeleton
import proofs.«126689_j1726576855246_1_alg».proof.Proof.Gen.Kernel.Launch
import proofs.«126689_j1726576855246_1_alg».proof.Proof.Gen.Kernel.Points
import proofs.«126689_j1726576855246_1_alg».proof.Proof.Gen.Kernel.Frame
import proofs.«126689_j1726576855246_1_alg».proof.Proof.Gen.KernelIdeal
import proofs.«126689_j1726576855246_1_alg».proof.Proof.Gen.KernelIdeal.Skeleton
import proofs.«126689_j1726576855246_1_alg».proof.Proof.Gen.KernelIdeal.Launch
import proofs.«126689_j1726576855246_1_alg».proof.Proof.Gen.KernelIdeal.Points
import proofs.«126689_j1726576855246_1_alg».proof.Proof.Gen.KernelIdeal.Frame
import proofs.«126689_j1726576855246_1_alg».proof.Proof.Gen.ReferenceIdeal
import proofs.«126689_j1726576855246_1_alg».proof.Proof.Gen.ReferenceIdeal.Run
import proofs.«126689_j1726576855246_1_alg».proof.Proof.Gen.ReferenceIdeal.Read
import proofs.«126689_j1726576855246_1_alg».proof.Proof.Gen.Pre_finite_inputs
import proofs.«126689_j1726576855246_1_alg».proof.Proof.RefSide
import proofs.«126689_j1726576855246_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end at the batched dequantised product of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
